-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S150000x64 .f32) (main_arg1 : IVec S2000000 32) (main_arg2 : IVec S2000000 32) (main_arg3 : FVec F S128x64 .f32) (main_arg4 : FVec F S64 .f32) (main_arg5 : FVec F S64x1 .f32) (main_arg6 : FVec F S1 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S150000x64 : Shape := ⟨2, ![150000, 64]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S2000000x1 : Shape := ⟨2, ![2000000, 1]⟩
abbrev S2000000x64 : Shape := ⟨2, ![2000000, 64]⟩
abbrev S64x64 : Shape := ⟨2, ![64, 64]⟩
abbrev S1x64 : Shape := ⟨2, ![1, 64]⟩
abbrev S1x1 : Shape := ⟨2, ![1, 1]⟩
abbrev S10000x64 : Shape := ⟨2, ![10000, 64]⟩
abbrev S10000x1 : Shape := ⟨2, ![10000, 1]⟩

abbrev nBuf : Space → Nat
  | .hbm => 35
  | .vmem => 11
  | .smem => 0
  | _ => 0

abbrev bufTy : (tb : Table) → Fin (tcTables nBuf tb) → BufTy
  | .hbm, ⟨0, _⟩ => ⟨S150000x64, .f32⟩
  | .hbm, ⟨1, _⟩ => ⟨S2000000, .i32⟩
  | .hbm, ⟨2, _⟩ => ⟨S2000000, .i32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S2000000x64, .bf16⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x64, .f32⟩
  | .hbm, ⟨26, _⟩ => ⟨S2000000x64, .bf16⟩
  | .hbm, ⟨27, _⟩ => ⟨S64x64, .f32⟩
  | .hbm, ⟨28, _⟩ => ⟨S64x64, .bf16⟩
  | .hbm, ⟨29, _⟩ => ⟨S64x64, .f32⟩
  | .hbm, ⟨30, _⟩ => ⟨S64x64, .bf16⟩
  | .hbm, ⟨31, _⟩ => ⟨S64x1, .bf16⟩
  | .hbm, ⟨32, _⟩ => ⟨S1x64, .f32⟩
  | .hbm, ⟨33, _⟩ => ⟨S1x1, .f32⟩
  | .hbm, ⟨34, _⟩ => ⟨S2000000x1, .f32⟩
  | .local _ .vmem, ⟨0, _⟩ => ⟨S10000x64, .bf16⟩
  | .local _ .vmem, ⟨1, _⟩ => ⟨S10000x64, .bf16⟩
  | .local _ .vmem, ⟨2, _⟩ => ⟨S10000x64, .bf16⟩
  | .local _ .vmem, ⟨3, _⟩ => ⟨S10000x64, .bf16⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S64x1, .bf16⟩
  | .local _ .vmem, ⟨8, _⟩ => ⟨S1x1, .f32⟩
  | .local _ .vmem, ⟨9, _⟩ => ⟨S10000x1, .f32⟩
  | .local _ .vmem, ⟨10, _⟩ => ⟨S10000x1, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bitsLt_bf16_f32 : FTy.bits .bf16 < FTy.bits .f32
  slices_S128x64_S64x64_0_0 : S128x64.Slices ![0, 0] S64x64
  slices_S128x64_S64x64_64_0 : S128x64.Slices ![64, 0] S64x64
  shapeCasts_S64_S1x64 : S64.ShapeCasts S1x64
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S150000x64_S2000000x1_S2000000x64_1_0_n_n_0_1_164_wf : GatherDims.WF S150000x64 S2000000x1 S2000000x64 [1] [0] [] [0] [] 1 ![1, 64]
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S2000000x64.size a
  hwx0_0 : ∀ i : grid0.Coords, EltTy.bits .bf16 = 32 ∨ (Rect.block (s := S2000000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S2000000x64.size a
  hwx0_1 : ∀ i : grid0.Coords, EltTy.bits .bf16 = 32 ∨ (Rect.block (s := S2000000x64) S10000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .bf16 = 32 ∨ (Rect.block (s := S64x1) S64x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x1.size a ≤ S2000000x1.size a
  hwx0_7 : ∀ i : grid0.Coords, EltTy.bits .f32 = 32 ∨ (Rect.block (s := S2000000x1) S10000x1.size (cc0_transform_7 i) (hinb0_7 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S10000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S150000x64 : Shape := ⟨2, ![150000, 64]⟩
abbrev S2000000 : Shape := ⟨1, ![2000000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S1x64 : Shape := ⟨2, ![1, 64]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S2000000, .i32⟩
  | .hbm, ⟨2, _⟩ => ⟨S2000000, .i32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x64, .f32⟩
  | .hbm, ⟨25, _⟩ => ⟨S2000000x128, .f32⟩
  | .hbm, ⟨26, _⟩ => ⟨S2000000x64, .f32⟩
  | .hbm, ⟨27, _⟩ => ⟨S1x64, .f32⟩
  | .hbm, ⟨28, _⟩ => ⟨S2000000x64, .f32⟩
  | .hbm, ⟨29, _⟩ => ⟨S2000000x64, .f32⟩
  | .hbm, ⟨30, _⟩ => ⟨S_, .f32⟩
  | .hbm, ⟨31, _⟩ => ⟨S2000000x64, .f32⟩
  | .hbm, ⟨32, _⟩ => ⟨S2000000x64, .f32⟩
  | .hbm, ⟨33, _⟩ => ⟨S2000000x1, .f32⟩
  | .hbm, ⟨34, _⟩ => ⟨S1x1, .f32⟩
  | .hbm, ⟨35, _⟩ => ⟨S2000000x1, .f32⟩
  | .hbm, ⟨36, _⟩ => ⟨S2000000x1, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  gather_S150000x64_S2000000x1_S2000000x64_1_0_n_n_0_1_164_wf : GatherDims.WF S150000x64 S2000000x1 S2000000x64 [1] [0] [] [0] [] 1 ![1, 64]
  dot_S2000000x128_S128x64_S2000000x64_1_0_0_1_n_n_wf : DotDims.WF S2000000x128 S128x64 S2000000x64 [1] [0] [0] [1] [] []
  dot_S2000000x64_S64x1_S2000000x1_1_0_0_1_n_n_wf : DotDims.WF S2000000x64 S64x1 S2000000x1 [1] [0] [0] [1] [] []

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf

class Facts : Prop extends Facts₀ where

variable [Facts]
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.EdgeScore.lean ====
/-
  The edge scorer as a function of arrays, entry by entry, on the extended reals.

  An edge e has the embedding rows of its two endpoints, s e and d e (64 numbers each). The scorer is a two-layer
  perceptron on the 128 numbers (s e, d e): the hidden unit k is max (⟨(s e, d e), W1 column k⟩ + b1 k, 0), and the score is
  ⟨hidden, W2 column⟩ + b2. The inner product with a column of W1 over the 128 joined coordinates is the inner product of
  s e with the column's first 64 entries plus that of d e with its last 64: a finite sum in a commutative monoid cut in two,
  which needs neither finiteness nor any distributive law.

  `tileScore` is the scorer over M edges with the weights already cut in two (a top and a bottom 64 × 64 matrix), the biases
  given as a 1 × 64 row and a 1 × 1 cell; `pairScore` is the scorer over all edges with the weights as the one 128 × 64 matrix
  and the biases as vectors, the two halves of a column addressed inside the one matrix.
-/
import Idealize.ShloMosaic.PureOps.Ideal
import Idealize.ShloMosaic.Lib.ValueIdx
import Mathlib.Algebra.BigOperators.Fin

noncomputable section

namespace Cert.EdgeScore

open Idealize.ShloMosaic Idealize.ShloMosaic.ValueIdx

/-- A sum over 128 coordinates is the sum over the first 64 plus the sum over the last 64. -/
theorem sum_two_halves {A : Type*} [AddCommMonoid A] (f : Fin 128 → A) :
    ∑ j : Fin 128, f j
      = (∑ j : Fin 64, f ⟨j.val, by have := j.isLt; omega⟩) + ∑ j : Fin 64, f ⟨64 + j.val, by have := j.isLt; omega⟩ :=
  Fin.sum_univ_add (a := 64) (b := 64) (fun i : Fin (64 + 64) => f i)

/-- The first 64 row positions of the joined weights. -/
abbrev topRow (j : Fin 64) : Fin 128 := ⟨j.val, by have := j.isLt; omega⟩
/-- The last 64 row positions of the joined weights. -/
abbrev botRow (j : Fin 64) : Fin 128 := ⟨64 + j.val, by have := j.isLt; omega⟩

/-- The scorer over M edges, weights cut in two: entry (e, q) is
    Σ_k max (Σ_j es (e, j) · wt (j, k) + Σ_j ed (e, j) · wb (j, k) + b1 (0, k), 0) · w2 (k, q) + b2 (0, 0). -/
def tileScore {M : ℕ} (es ed : (⟨2, ![M, 64]⟩ : Shape).Idx → EReal) (wt wb : (⟨2, ![64, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal) : (⟨2, ![M, 1]⟩ : Shape).Idx → EReal := fun i =>
  (∑ k : Fin 64,
      max ((∑ j : Fin 64, es (ix2 (n0 := M) (i 0) j) * wt (ix2 j k)) + (∑ j : Fin 64, ed (ix2 (n0 := M) (i 0) j) * wb (ix2 j k))
            + b1 (ix2 (0 : Fin 1) k)) 0
        * w2 (ix2 (n1 := 1) k (i 1)))
    + b2 (ix2 (0 : Fin 1) (0 : Fin 1))

/-- The scorer over all edges, weights as one 128 × 64 matrix: entry (e, q) is
    Σ_k max (Σ_j gs (e, j) · W1 (j, k) + Σ_j gd (e, j) · W1 (64 + j, k) + b1 k, 0) · W2 (k, q) + b2 0. -/
def pairScore (gs gd : (⟨2, ![2000000, 64]⟩ : Shape).Idx → EReal) (W1 : (⟨2, ![128, 64]⟩ : Shape).Idx → EReal)
    (b1 : (⟨1, ![64]⟩ : Shape).Idx → EReal) (W2 : (⟨2, ![64, 1]⟩ : Shape).Idx → EReal)
    (b2 : (⟨1, ![1]⟩ : Shape).Idx → EReal) : (⟨2, ![2000000, 1]⟩ : Shape).Idx → EReal := fun i =>
  (∑ k : Fin 64,
      max ((∑ j : Fin 64, gs (ix2 (n0 := 2000000) (i 0) j) * W1 (ix2 (topRow j) k))
            + (∑ j : Fin 64, gd (ix2 (n0 := 2000000) (i 0) j) * W1 (ix2 (botRow j) k)) + b1 (ix1 k)) 0
        * W2 (ix2 (n1 := 1) k (i 1)))
    + b2 (ix1 (0 : Fin 1))

/-- With the weights' two halves, the bias row and the bias cell read out of the joined weights and the bias vectors, the
    scorer over all edges in its cut form is the scorer over the joined weights. -/
theorem tileScore_eq_pairScore (gs gd : (⟨2, ![2000000, 64]⟩ : Shape).Idx → EReal)
    (wt wb : (⟨2, ![64, 64]⟩ : Shape).Idx → EReal) (r1 : (⟨2, ![1, 64]⟩ : Shape).Idx → EReal)
    (w2 : (⟨2, ![64, 1]⟩ : Shape).Idx → EReal) (r2 : (⟨2, ![1, 1]⟩ : Shape).Idx → EReal)
    (W1 : (⟨2, ![128, 64]⟩ : Shape).Idx → EReal) (b1 : (⟨1, ![64]⟩ : Shape).Idx → EReal) (b2 : (⟨1, ![1]⟩ : Shape).Idx → EReal)
    (ht : ∀ j k : Fin 64, wt (ix2 j k) = W1 (ix2 (topRow j) k)) (hb : ∀ j k : Fin 64, wb (ix2 j k) = W1 (ix2 (botRow j) k))
    (h1 : ∀ k : Fin 64, r1 (ix2 (0 : Fin 1) k) = b1 (ix1 k)) (h2 : r2 (ix2 (0 : Fin 1) (0 : Fin 1)) = b2 (ix1 (0 : Fin 1))) :
    tileScore gs gd wt wb r1 w2 r2 = pairScore gs gd W1 b1 w2 b2 := by
  funext i
  unfold tileScore pairScore
  rw [h2]
  refine congrArg (· + b2 (ix1 (0 : Fin 1))) (Finset.sum_congr rfl fun k _ => ?_)
  rw [h1 k]
  refine congrArg (fun z => max (z + b1 (ix1 k)) 0 * w2 (ix2 (n1 := 1) k (i 1))) ?_
  exact congrArg₂ (· + ·) (Finset.sum_congr rfl fun j _ => by rw [ht j k]) (Finset.sum_congr rfl fun j _ => by rw [hb j k])

/-- The scorer at one edge depends only on that edge's two rows, the weights and the biases: two scorers over different
    numbers of edges agree at two edges whose rows agree, when their weights and biases agree. -/
theorem tileScore_congr {M N : ℕ} (es ed : (⟨2, ![M, 64]⟩ : Shape).Idx → EReal) (Es Ed : (⟨2, ![N, 64]⟩ : Shape).Idx → EReal)
    (wt wb wt' wb' : (⟨2, ![64, 64]⟩ : Shape).Idx → EReal) (b1 b1' : (⟨2, ![1, 64]⟩ : Shape).Idx → EReal)
    (w2 w2' : (⟨2, ![64, 1]⟩ : Shape).Idx → EReal) (b2 b2' : (⟨2, ![1, 1]⟩ : Shape).Idx → EReal)
    (y : (⟨2, ![M, 1]⟩ : Shape).Idx) (i : (⟨2, ![N, 1]⟩ : Shape).Idx)
    (hs : ∀ j : Fin 64, es (ix2 (n0 := M) (y 0) j) = Es (ix2 (n0 := N) (i 0) j))
    (hd : ∀ j : Fin 64, ed (ix2 (n0 := M) (y 0) j) = Ed (ix2 (n0 := N) (i 0) j))
    (ht : ∀ j k : Fin 64, wt (ix2 j k) = wt' (ix2 j k)) (hb : ∀ j k : Fin 64, wb (ix2 j k) = wb' (ix2 j k))
    (h1 : ∀ k : Fin 64, b1 (ix2 (0 : Fin 1) k) = b1' (ix2 (0 : Fin 1) k))
    (hw : ∀ k : Fin 64, w2 (ix2 (n1 := 1) k (y 1)) = w2' (ix2 (n1 := 1) k (i 1)))
    (h2 : b2 (ix2 (0 : Fin 1) (0 : Fin 1)) = b2' (ix2 (0 : Fin 1) (0 : Fin 1))) :
    tileScore es ed wt wb b1 w2 b2 y = tileScore Es Ed wt' wb' b1' w2' b2' i := by
  unfold tileScore
  rw [h2]
  refine congrArg (· + b2' (ix2 (0 : Fin 1) (0 : Fin 1))) (Finset.sum_congr rfl fun k _ => ?_)
  rw [h1 k, hw k]
  refine congrArg (fun z => max (z + b1' (ix2 (0 : Fin 1) k)) 0 * w2' (ix2 (n1 := 1) k (i 1))) ?_
  exact congrArg₂ (· + ·) (Finset.sum_congr rfl fun j _ => by rw [hs j, ht j k])
    (Finset.sum_congr rfl fun j _ => by rw [hd j, hb j k])

end Cert.EdgeScore

end
-- ==== Proof.KernelTile.lean ====
/-
  What the kernel body computes on one tile of edges, entry by entry.

  The body takes the source and destination rows of 10000 edges (two [10000 × 64] blocks), the top and the bottom half of
  the first layer's weights (two [64 × 64] blocks), the first bias as a [1 × 64] row, the second layer's weights as a
  [64 × 1] column and the second bias as a [1 × 1] cell. Each of its three matrix products, into a zero accumulator, is at an
  entry the sum over the contracted coordinate of the operands' products; the row and the cell are repeated down the
  tile; a change of float format is the identity on the extended reals. So the stored tile is the edge scorer in its cut
  form (`tileScore`) of the seven blocks.
-/
import proofs.«106652_j34050500723299_1_alg».proof.Proof.Gen.KernelIdeal.Skeleton
import proofs.«106652_j34050500723299_1_alg».proof.Proof.LibDense
import proofs.«106652_j34050500723299_1_alg».proof.Proof.EdgeScore
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx
open Cert.EdgeScore

/-- The scalar zero the body compares with is the extended real 0. -/
theorem scalar_zero : (Scalar.ofBits (F := Ideal) .f32 0x00000000#32 : Ideal .f32) = (0 : EReal) :=
  Ideal.ofBits_zero_f32

/-- The tile the body stores is the cut-form edge scorer of the seven blocks it loads. -/
theorem payload_eq (x0 x1 : Vec Ideal S10000x64 .bf16) (x2 x3 : Vec Ideal S64x64 .bf16) (x4 : Vec Ideal S1x64 .f32)
    (x5 : Vec Ideal S64x1 .bf16) (x6 : Vec Ideal S1x1 .f32) :
    k0_pay1 (F := Ideal) x0 x1 x2 x3 x4 x5 x6 = tileScore (M := 10000) x0 x1 x2 x3 x4 x5 x6 := by
  funext i
  obtain ⟨p, q, rfl⟩ : ∃ (p : Fin 10000) (q : Fin 1), i = ix2 p q := ⟨i 0, i 1, eq_ix2 i⟩
  have hq : q = 0 := Subsingleton.elim _ _
  unfold k0_pay1 tileScore
  simp only [addf_apply, maximumf_apply, truncf_apply, broadcast_apply, shapeCast_self, matmul,
    Cert.LibDense.matmul_zero_apply dot_S10000x64_S64x64_S10000x64_1_0_0_1_n_n none rfl rfl rfl rfl rfl rfl,
    Cert.LibDense.matmul_zero_apply dot_S10000x64_S64x1_S10000x1_1_0_0_1_n_n none rfl rfl rfl rfl rfl rfl,
    broadcastTo_1b_ab_apply, scalar_zero]
  subst hq
  rfl

end Cert.KernelIdeal.Tile

end
-- ==== Proof.KernelBlock.lean ====
/-
  The kernel's result array after its run: the edge scorer over the rows gathered on the host and the weight and bias
  arguments.

  The grid has 200 points; point t handles edges 10000 t … 10000 t + 9999. Its two row blocks are rows of that range of
  the two gathered arrays, the five small operands are whole arrays at every point, and it writes back block t of the
  [2000000 × 1] result. The blocks 0 … 199 tile the result, so the array ends as ONE function of the arrays the region
  finds: the cut-form scorer over them. Those arrays are what the host operations before the region made of the
  arguments: the gathered rows (a change of float format is the identity), the top and bottom 64 rows of the first
  layer's weights, the first bias as a one-row matrix, the second layer's weights, the second bias as a one-cell matrix; with
  them read out of the arguments the cut form is the scorer over the joined weights.
-/
import proofs.«106652_j34050500723299_1_alg».proof.Defs
import proofs.«106652_j34050500723299_1_alg».proof.Proof.Gen.KernelIdeal.Value
import proofs.«106652_j34050500723299_1_alg».proof.Proof.KernelTile
import proofs.«106652_j34050500723299_1_alg».proof.Proof.EdgeScore
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.EdgeScore

variable (m : (ℓ : Loc nD τ sig) → Buf (Elt Ideal) ℓ) (ρ : Dev nD → PrngReg)

/-! ## The arrays the region finds -/

/-- The source rows, the destination rows, the two halves of the first layer's weights, the first bias row, the second
    layer's weights and the second bias cell, as the region finds them. -/
abbrev srcA (c : Dev nD) : Vec Ideal S2000000x64 .bf16 := V m c main_v7
abbrev dstA (c : Dev nD) : Vec Ideal S2000000x64 .bf16 := V m c main_v15
abbrev topA (c : Dev nD) : Vec Ideal S64x64 .bf16 := V m c main_v17
abbrev botA (c : Dev nD) : Vec Ideal S64x64 .bf16 := V m c main_v19
abbrev b1A (c : Dev nD) : Vec Ideal S1x64 .f32 := V m c main_v21
abbrev w2A (c : Dev nD) : Vec Ideal S64x1 .bf16 := V m c main_v20
abbrev b2A (c : Dev nD) : Vec Ideal S1x1 .f32 := V m c main_v22

/-! ## What point t writes back -/

theorem hz : (![0, 0] : Fin 2 → Nat) = fun _ => 0 := funext fun a => match a with | ⟨0, _⟩ => rfl | ⟨1, _⟩ => rfl

/-- The printed index maps over the grid: the two row windows and the result window are at block (t, 0) at point t, the
    five small windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Point t writes back block t of the cut-form scorer over the arrays the region finds. -/
theorem flushed_eq (c : Dev nD) (t : Fin cfg0.N) :
    (dats m 0 c).flushed 7 t = ((cfg0.win 7).blk t).view.read (Elt Ideal)
      (tileScore (M := 2000000) (srcA m c) (dstA m c) (topA m c) (botA m c) (b1A m c) (w2A m c) (b2A m c)) := by
  rw [Value.flushed7]
  unfold out0_7
  rw [View.canon_unit_zero hz]
  simp only [View.ld_unit_zero (S := S10000x64) hz, View.ld_unit_zero (S := S64x64) hz, View.ld_unit_zero (S := S1x64) hz,
    View.ld_unit_zero (S := S64x1) hz, View.ld_unit_zero (S := S1x1) hz]
  rw [Tile.payload_eq (iblk m c 0 t) (iblk m c 1 t) (iblk m c 2 t) (iblk m c 3 t) (iblk m c 4 t) (iblk m c 5 t) (iblk m c 6 t)]
  obtain ⟨e00, e01, e10, e11, e20, e21, e30, e31, e40, e41, e50, e51, e60, e61, e70, e71⟩ := idx_facts t
  funext y
  show tileScore (M := 10000) (iblk m c 0 t) (iblk m c 1 t) (iblk m c 2 t) (iblk m c 3 t) (iblk m c 4 t) (iblk m c 5 t) (iblk m c 6 t) y
    = tileScore (M := 2000000) (srcA m c) (dstA m c) (topA m c) (botA m c) (b1A m c) (w2A m c) (b2A m c) (((cfg0.win 7).blk t).view.emb y)
  refine tileScore_congr (M := 10000) (N := 2000000) (iblk m c 0 t) (iblk m c 1 t) (srcA m c) (dstA m c) (iblk m c 2 t) (iblk m c 3 t) (topA m c) (botA m c)
    (iblk m c 4 t) (b1A m c) (iblk m c 5 t) (w2A m c) (iblk m c 6 t) (b2A m c) y (((cfg0.win 7).blk t).view.emb y) ?_ ?_ ?_ ?_ ?_ ?_ ?_
  · intro j
    show V m c main_v7 (((cfg0.win 0).blk t).view.emb (ix2 (n0 := 10000) (y 0) j))
      = V m c main_v7 (ix2 (n0 := 2000000) ((((cfg0.win 7).blk t).view.emb y) 0) j)
    refine congrArg (V m c main_v7) (funext fun a => Fin.ext ?_)
    match a with
    | ⟨0, _⟩ =>
      show win0_0.index t (0 : Fin 2) * 10000 + 1 * (y 0).val = win0_7.index t (0 : Fin 2) * 10000 + 1 * (y 0).val
      rw [e00, e70]
    | ⟨1, _⟩ =>
      show win0_0.index t (1 : Fin 2) * 64 + 1 * j.val = j.val
      rw [e01]; omega
  · intro j
    show V m c main_v15 (((cfg0.win 1).blk t).view.emb (ix2 (n0 := 10000) (y 0) j))
      = V m c main_v15 (ix2 (n0 := 2000000) ((((cfg0.win 7).blk t).view.emb y) 0) j)
    refine congrArg (V m c main_v15) (funext fun a => Fin.ext ?_)
    match a with
    | ⟨0, _⟩ =>
      show win0_1.index t (0 : Fin 2) * 10000 + 1 * (y 0).val = win0_7.index t (0 : Fin 2) * 10000 + 1 * (y 0).val
      rw [e10, e70]
    | ⟨1, _⟩ =>
      show win0_1.index t (1 : Fin 2) * 64 + 1 * j.val = j.val
      rw [e11]; omega
  · intro j k
    show V m c main_v17 (((cfg0.win 2).blk t).view.emb (ix2 j k)) = V m c main_v17 (ix2 j k)
    refine congrArg (V m c main_v17) (funext fun a => Fin.ext ?_)
    match a with
    | ⟨0, _⟩ => show win0_2.index t (0 : Fin 2) * 64 + 1 * j.val = j.val; rw [e20]; omega
    | ⟨1, _⟩ => show win0_2.index t (1 : Fin 2) * 64 + 1 * k.val = k.val; rw [e21]; omega
  · intro j k
    show V m c main_v19 (((cfg0.win 3).blk t).view.emb (ix2 j k)) = V m c main_v19 (ix2 j k)
    refine congrArg (V m c main_v19) (funext fun a => Fin.ext ?_)
    match a with
    | ⟨0, _⟩ => show win0_3.index t (0 : Fin 2) * 64 + 1 * j.val = j.val; rw [e30]; omega
    | ⟨1, _⟩ => show win0_3.index t (1 : Fin 2) * 64 + 1 * k.val = k.val; rw [e31]; omega
  · intro k
    show V m c main_v21 (((cfg0.win 4).blk t).view.emb (ix2 (0 : Fin 1) k)) = V m c main_v21 (ix2 (0 : Fin 1) k)
    refine congrArg (V m c main_v21) (funext fun a => Fin.ext ?_)
    match a with
    | ⟨0, _⟩ => show win0_4.index t (0 : Fin 2) * 1 + 1 * 0 = 0; rw [e40]
    | ⟨1, _⟩ => show win0_4.index t (1 : Fin 2) * 64 + 1 * k.val = k.val; rw [e41]; omega
  · intro k
    show V m c main_v20 (((cfg0.win 5).blk t).view.emb (ix2 (n1 := 1) k (y 1)))
      = V m c main_v20 (ix2 (n1 := 1) k ((((cfg0.win 7).blk t).view.emb y) 1))
    refine congrArg (V m c main_v20) (funext fun a => Fin.ext ?_)
    match a with
    | ⟨0, _⟩ => show win0_5.index t (0 : Fin 2) * 64 + 1 * k.val = k.val; rw [e50]; omega
    | ⟨1, _⟩ =>
      show win0_5.index t (1 : Fin 2) * 1 + 1 * (y 1).val = win0_7.index t (1 : Fin 2) * 1 + 1 * (y 1).val
      rw [e51, e71]
  · show V m c main_v22 (((cfg0.win 6).blk t).view.emb (ix2 (0 : Fin 1) (0 : Fin 1))) = V m c main_v22 (ix2 (0 : Fin 1) (0 : Fin 1))
    refine congrArg (V m c main_v22) (funext fun a => Fin.ext ?_)
    match a with
    | ⟨0, _⟩ => show win0_6.index t (0 : Fin 2) * 1 + 1 * 0 = 0; rw [e60]
    | ⟨1, _⟩ => show win0_6.index t (1 : Fin 2) * 1 + 1 * 0 = 0; rw [e61]

/-! ## The blocks tile the result -/

/-- An entry of the result is in point t's block iff each coordinate is in the block's range on its axis. -/
theorem mem_blk (t : Fin cfg0.N) (i : S2000000x1.Idx) :
    i ∈ ((cfg0.win 7).blk t).view.set ↔ ∀ a : Fin 2, win0_7.index t a * S10000x1.size a ≤ (i a).val
      ∧ (i a).val < win0_7.index t a * S10000x1.size a + S10000x1.size a := by
  show i ∈ ((View.whole main_v23).slice (win0_7.rect t)).set ↔ _
  rw [View.set_slice_whole, Rect.mem_set_unit]
  exact Iff.rfl

/-- Edge r is in the block of point r / 10000. -/
theorem cover (i : S2000000x1.Idx) :
    ∃ t : Fin cfg0.N, (cfg0.win 7).flush t = true ∧ i ∈ ((cfg0.win 7).blk t).view.set := by
  have hi0 : (i 0).val < 2000000 := (i 0).isLt
  have hi1 : (i 1).val < 1 := (i 1).isLt
  obtain ⟨t, ht⟩ : ∃ t : Fin cfg0.N, t.val = (i 0).val / 10000 :=
    ⟨⟨(i 0).val / 10000, Nat.lt_of_lt_of_eq (by omega : (i 0).val / 10000 < 200) N_0.symm⟩, rfl⟩
  obtain ⟨-, -, -, -, -, -, -, -, -, -, -, -, -, -, e70, e71⟩ := idx_facts t
  refine ⟨t, flush0_7 t, ?_⟩
  rw [mem_blk]
  intro a
  match a with
  | ⟨0, _⟩ =>
    show win0_7.index t (0 : Fin 2) * 10000 ≤ (i 0).val ∧ (i 0).val < win0_7.index t (0 : Fin 2) * 10000 + 10000
    rw [e70, ht]; omega
  | ⟨1, _⟩ =>
    show win0_7.index t (1 : Fin 2) * 1 ≤ (i 1).val ∧ (i 1).val < win0_7.index t (1 : Fin 2) * 1 + 1
    rw [e71]; omega

/-- The result array after the run: the cut-form scorer over the arrays the region finds. -/
theorem final (c : Dev nD) : (dats m 0 c).arrAt 7 cfg0.N
    = tileScore (M := 2000000) (srcA m c) (dstA m c) (topA m c) (botA m c) (b1A m c) (w2A m c) (b2A m c) :=
  (dats m 0 c).arrAt_eq_of_cover 7 _ (fun t _ => flushed_eq m c t) cover

/-! ## The arrays the region finds, from the arguments -/

/-- Signed row numbers as row positions: a negative number counts from the array's end (its length, 150000, is added),
    laid out as one column. -/
def rowPos (a : (⟨S2000000, .i32⟩ : BufTy).Contents (Elt Ideal)) : (⟨S2000000x1, .i32⟩ : BufTy).Contents (Elt Ideal) :=
  broadcastInDim S2000000x1 ![0] bcast_S2000000_S2000000x1_0
    (select (cmpi .slt a (broadcastInDim S2000000 ![] bcast_S_S2000000 (constantI S_ 32 0#32)))
      (addi a (broadcastInDim S2000000 ![] bcast_S_S2000000 (constantI S_ 32 150000#32))) a)

/-- The rows of the table at the given row numbers. -/
def rowsAt (x : (⟨S150000x64, .f32⟩ : BufTy).Contents (Elt Ideal)) (a : (⟨S2000000, .i32⟩ : BufTy).Contents (Elt Ideal)) :
    (⟨S2000000x64, .f32⟩ : BufTy).Contents (Elt Ideal) :=
  Host.gather gather_S150000x64_S2000000x1_S2000000x64_1_0_n_n_0_1_164 x (rowPos a)

theorem srcA_eq (c : Dev nD) : srcA m c = rowsAt (m ((c : Thread nD τ).loc main_arg0)) (m ((c : Thread nD τ).loc main_arg1)) := by
  show V m c main_v7 = _
  dsimp only [Gen.V, Gen.hostOps0]; after_results; rfl

theorem dstA_eq (c : Dev nD) : dstA m c = rowsAt (m ((c : Thread nD τ).loc main_arg0)) (m ((c : Thread nD τ).loc main_arg2)) := by
  show V m c main_v15 = _
  dsimp only [Gen.V, Gen.hostOps0]; after_results; rfl

theorem topA_eq (c : Dev nD) : topA m c = extractStridedSlice S64x64 ![0, 0] (m ((c : Thread nD τ).loc main_arg3)) slices_S128x64_S64x64_0_0 := by
  show V m c main_v17 = _
  dsimp only [Gen.V, Gen.hostOps0]; after_results; rfl

theorem botA_eq (c : Dev nD) : botA m c = extractStridedSlice S64x64 ![64, 0] (m ((c : Thread nD τ).loc main_arg3)) slices_S128x64_S64x64_64_0 := by
  show V m c main_v19 = _
  dsimp only [Gen.V, Gen.hostOps0]; after_results; rfl

theorem b1A_eq (c : Dev nD) : b1A m c = shapeCast S1x64 (m ((c : Thread nD τ).loc main_arg4)) shapeCasts_S64_S1x64 := by
  show V m c main_v21 = _
  dsimp only [Gen.V, Gen.hostOps0]; after_results; rfl

theorem w2A_eq (c : Dev nD) : w2A m c = (m ((c : Thread nD τ).loc main_arg5)) := by
  show V m c main_v20 = _
  dsimp only [Gen.V, Gen.hostOps0]; after_results; rfl

theorem b2A_eq (c : Dev nD) : b2A m c = shapeCast S1x1 (m ((c : Thread nD τ).loc main_arg6)) shapeCasts_S1_S1x1 := by
  show V m c main_v22 = _
  dsimp only [Gen.V, Gen.hostOps0]; after_results; rfl

/-- The cut-form scorer over the arrays the region finds is the scorer over the joined weights and the arguments. -/
theorem whole_eq (c : Dev nD) :
    tileScore (M := 2000000) (srcA m c) (dstA m c) (topA m c) (botA m c) (b1A m c) (w2A m c) (b2A m c)
      = pairScore (rowsAt (m ((c : Thread nD τ).loc main_arg0)) (m ((c : Thread nD τ).loc main_arg1))) (rowsAt (m ((c : Thread nD τ).loc main_arg0)) (m ((c : Thread nD τ).loc main_arg2)))
          (m ((c : Thread nD τ).loc main_arg3)) (m ((c : Thread nD τ).loc main_arg4)) (m ((c : Thread nD τ).loc main_arg5)) (m ((c : Thread nD τ).loc main_arg6)) := by
  rw [srcA_eq, dstA_eq, w2A_eq]
  refine tileScore_eq_pairScore _ _ (topA m c) (botA m c) (b1A m c) _ (b2A m c) _ _ _ ?_ ?_ ?_ ?_
  · intro j k
    rw [topA_eq]
    exact (slice2_axis0_eq 0 _ slices_S128x64_S64x64_0_0 j k).trans
      (congrArg (fun r => (m ((c : Thread nD τ).loc main_arg3)) (ix2 r k)) (Fin.ext (Nat.zero_add _)))
  · intro j k
    rw [botA_eq]
    exact slice2_axis0_eq 64 _ slices_S128x64_S64x64_64_0 j k
  · intro k
    rw [b1A_eq]
    exact shapeCast_a_1a_apply _ shapeCasts_S64_S1x64 (0 : Fin 1) k
  · rw [b2A_eq]
    exact shapeCast_a_1a_apply _ shapeCasts_S1_S1x1 (0 : Fin 1) (0 : Fin 1)

/-! ## The run, read -/

/-- Every weakly fair execution of the kernel's program terminates with the result array at the edge scorer of the
    arguments and the arguments unchanged. -/
theorem run : θ_run defs (onTc (τ := τ) (main (F := Ideal))) ⟨m, fun _ => 0, ρ⟩ fun r => ∀ c : Dev nD,
      r.2.mem ((c : Thread nD τ).loc main_v23)
        = pairScore (rowsAt (m ((c : Thread nD τ).loc main_arg0)) (m ((c : Thread nD τ).loc main_arg1))) (rowsAt (m ((c : Thread nD τ).loc main_arg0)) (m ((c : Thread nD τ).loc main_arg2)))
            (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1.trans (final m c)).trans (whole_eq m c), (h c).2⟩)
    (Value.run_blocks m ρ)

end Cert.KernelIdeal.Whole

end
-- ==== Proof.RefSide.lean ====
/-
  The reference's result, entry by entry, is the edge scorer over the joined weights.

  The reference joins the two gathered row arrays side by side into one [edges × 128] array and multiplies it with the
  [128 × 64] weights. Column j of the joined array is column j of the source rows for j < 64 and column j − 64 of the
  destination rows otherwise, so the 128-term inner product is the sum of two 64-term ones (`sum_two_halves`); the rest of
  the reference (bias, maximum with zero, second product, bias) is read one operation at a time.
-/
import proofs.«106652_j34050500723299_1_alg».proof.Defs
import proofs.«106652_j34050500723299_1_alg».proof.Proof.Gen.ReferenceIdeal.Read
import proofs.«106652_j34050500723299_1_alg».proof.Proof.EdgeScore
import Idealize.ShloMosaic.Lib.Pipeline.Value
import Idealize.ShloMosaic.Lib.ValueIdx
import Idealize.ShloMosaic.PureOps.Ideal.Laws

noncomputable section

namespace Cert.ReferenceIdeal.Score

open Cert.ReferenceIdeal Cert.ReferenceIdeal.Gen Cert.ReferenceIdeal.Read Idealize.ShloMosaic Idealize.ShloMosaic.ValueIdx
open Cert.EdgeScore

variable (x0 : (⟨S150000x64, .f32⟩ : BufTy).Contents (Elt Ideal)) (x1 x2 : (⟨S2000000, .i32⟩ : BufTy).Contents (Elt Ideal))
  (x3 : (⟨S128x64, .f32⟩ : BufTy).Contents (Elt Ideal)) (x4 : (⟨S64, .f32⟩ : BufTy).Contents (Elt Ideal))
  (x5 : (⟨S64x1, .f32⟩ : BufTy).Contents (Elt Ideal)) (x6 : (⟨S1, .f32⟩ : BufTy).Contents (Elt Ideal))

/-- In its first 64 columns the joined array holds the source rows. -/
theorem joined_left (e : Fin 2000000) (j : Fin 64) :
    val_main_v14 (F := Ideal) x0 x1 x2 (ix2 e (topRow j)) = val_main_v6 (F := Ideal) x0 x1 (ix2 e j) := by
  unfold val_main_v14
  exact concatenate_pair_apply_left (t := S2000000x128) (s₁ := S2000000x64) (s₂ := S2000000x64) (1 : Fin 2) _ _
    concatenates_S2000000x64_S2000000x64_S2000000x128_d1 (ix2 e (topRow j)) rfl (ix2 e j)
    (fun b => match b with | ⟨0, _⟩ => rfl | ⟨1, _⟩ => rfl)

/-- In its last 64 columns the joined array holds the destination rows. -/
theorem joined_right (e : Fin 2000000) (j : Fin 64) :
    val_main_v14 (F := Ideal) x0 x1 x2 (ix2 e (botRow j)) = val_main_v13 (F := Ideal) x0 x2 (ix2 e j) := by
  unfold val_main_v14
  exact concatenate_pair_apply_right (t := S2000000x128) (s₁ := S2000000x64) (s₂ := S2000000x64) (1 : Fin 2) _ _
    concatenates_S2000000x64_S2000000x64_S2000000x128_d1 (ix2 e (botRow j)) rfl rfl (ix2 e j)
    (fun b => match b with | ⟨0, _⟩ => fun _ => rfl | ⟨1, _⟩ => fun h => absurd rfl h)
    (show j.val + 64 = 64 + j.val by omega)

/-- The reference's result at edge e (its one column q): the scorer's formula over the gathered rows and the joined weights. -/
theorem result_at (e : Fin 2000000) (q : Fin 1) :
    val_main_v23 (F := Ideal) x0 x1 x2 x3 x4 x5 x6 (ix2 e q)
      = (∑ k : Fin 64,
          max ((∑ j : Fin 64, val_main_v6 (F := Ideal) x0 x1 (ix2 e j) * x3 (ix2 (topRow j) k))
                + (∑ j : Fin 64, val_main_v13 (F := Ideal) x0 x2 (ix2 e j) * x3 (ix2 (botRow j) k)) + x4 (ix1 k)) 0
            * x5 (ix2 k q))
        + x6 (ix1 (0 : Fin 1)) := by
  rw [val_main_v23_apply, val_main_v20_apply, val_main_v22_apply, val_main_v21_apply]
  have h6 : x6 (idx_main_v21 (idx_main_v22 (ix2 e q))) = x6 (ix1 (0 : Fin 1)) :=
    congrArg x6 (funext fun a => match a with | ⟨0, _⟩ => rfl)
  rw [h6]
  show (∑ k : Fin 64, _) + _ = _
  refine congrArg (· + x6 (ix1 (0 : Fin 1))) (Finset.sum_congr rfl fun k _ => ?_)
  have el : lidx_main_v20 (ix2 e q) k = ix2 e k := funext fun a => match a with | ⟨0, _⟩ => rfl | ⟨1, _⟩ => rfl
  have er : ridx_main_v20 (ix2 e q) k = ix2 k q := funext fun a => match a with | ⟨0, _⟩ => rfl | ⟨1, _⟩ => rfl
  rw [el, er, val_main_v19_apply, val_main_v18_apply, val_main_v15_apply, val_main_v17_apply, val_main_v16_apply,
    val_main_call0_v0_apply, val_main_call0_cst_apply]
  have e4 : x4 (idx_main_v16 (idx_main_v17 (ix2 e k))) = x4 (ix1 k) :=
    congrArg x4 (funext fun a => match a with | ⟨0, _⟩ => rfl)
  rw [e4, sum_two_halves]
  have hL : ∀ j : Fin 64, val_main_v14 (F := Ideal) x0 x1 x2 (lidx_main_v15 (ix2 e k) (topRow j)) * x3 (ridx_main_v15 (ix2 e k) (topRow j))
      = val_main_v6 (F := Ideal) x0 x1 (ix2 e j) * x3 (ix2 (topRow j) k) := fun j => by
    have a1 : lidx_main_v15 (ix2 e k) (topRow j) = ix2 e (topRow j) := funext fun a => match a with | ⟨0, _⟩ => rfl | ⟨1, _⟩ => rfl
    have a2 : ridx_main_v15 (ix2 e k) (topRow j) = ix2 (topRow j) k := funext fun a => match a with | ⟨0, _⟩ => rfl | ⟨1, _⟩ => rfl
    rw [a1, a2, joined_left]
  have hR : ∀ j : Fin 64, val_main_v14 (F := Ideal) x0 x1 x2 (lidx_main_v15 (ix2 e k) (botRow j)) * x3 (ridx_main_v15 (ix2 e k) (botRow j))
      = val_main_v13 (F := Ideal) x0 x2 (ix2 e j) * x3 (ix2 (botRow j) k) := fun j => by
    have a1 : lidx_main_v15 (ix2 e k) (botRow j) = ix2 e (botRow j) := funext fun a => match a with | ⟨0, _⟩ => rfl | ⟨1, _⟩ => rfl
    have a2 : ridx_main_v15 (ix2 e k) (botRow j) = ix2 (botRow j) k := funext fun a => match a with | ⟨0, _⟩ => rfl | ⟨1, _⟩ => rfl
    rw [a1, a2, joined_right]
  rw [Finset.sum_congr rfl (fun j _ => hL j), Finset.sum_congr rfl (fun j _ => hR j)]
  simp only [Ideal.addf_def, Ideal.maximumf_def, Ideal.ofBits_def, Ideal.ofBits_zero_f32]

/-- The reference's result is the edge scorer over the rows it gathers and its weight and bias arguments. -/
theorem result_eq :
    val_main_v23 (F := Ideal) x0 x1 x2 x3 x4 x5 x6
      = pairScore (val_main_v6 (F := Ideal) x0 x1) (val_main_v13 (F := Ideal) x0 x2) x3 x4 x5 x6 := by
  funext i
  obtain ⟨e, q, rfl⟩ : ∃ (e : Fin 2000000) (q : Fin 1), i = ix2 e q := ⟨i 0, i 1, eq_ix2 i⟩
  rw [result_at]
  rfl

end Cert.ReferenceIdeal.Score

end
-- ==== Proof.lean ====
/-
  An edge scorer over gathered node embeddings: the kernel against its reference, on the extended reals.

  For every edge e, both programs gather the embedding rows of the edge's two endpoints (64 numbers each; a negative row
  number counts from the table's end) and score the 128 numbers (s e, d e) with a two-layer perceptron:
  score e = Σ_k max (⟨(s e, d e), W1 column k⟩ + b1 k, 0) · W2 k + b2.
  The reference joins the two row arrays into one [edges × 128] array and multiplies it with the [128 × 64] weights. The
  kernel never builds the joined array: it multiplies the source rows with the top 64 rows of the weights and the
  destination rows with the bottom 64 rows, adds the two products, and does so tile by tile, 10000 edges at a grid point,
  with its matrix operands in a narrower float format (the identity on the extended reals). The two agree because a sum over
  128 joined coordinates is the sum over the first 64 plus the sum over the last 64 — associativity and commutativity of
  addition only, so the precondition (finite inputs) is not used.

  Proof/EdgeScore.lean states the scorer (its cut form and its joined form) and the law between them; Proof/KernelTile.lean
  reads the kernel body's stored tile as the cut form of its loaded blocks; Proof/KernelBlock.lean puts the 200 tiles together
  and reads the host operations before the launch; Proof/RefSide.lean reads the reference one operation at a time;
  Proof/LibDense.lean reads a plain matrix product at an entry.
-/
import proofs.«106652_j34050500723299_1_alg».proof.Defs
import proofs.«106652_j34050500723299_1_alg».proof.Proof.Gen.Kernel
import proofs.«106652_j34050500723299_1_alg».proof.Proof.Gen.Kernel.Skeleton
import proofs.«106652_j34050500723299_1_alg».proof.Proof.Gen.Kernel.Launch
import proofs.«106652_j34050500723299_1_alg».proof.Proof.Gen.Kernel.Points
import proofs.«106652_j34050500723299_1_alg».proof.Proof.Gen.Kernel.Frame
import proofs.«106652_j34050500723299_1_alg».proof.Proof.Gen.KernelIdeal
import proofs.«106652_j34050500723299_1_alg».proof.Proof.Gen.KernelIdeal.Skeleton
import proofs.«106652_j34050500723299_1_alg».proof.Proof.Gen.KernelIdeal.Launch
import proofs.«106652_j34050500723299_1_alg».proof.Proof.Gen.KernelIdeal.Points
import proofs.«106652_j34050500723299_1_alg».proof.Proof.Gen.KernelIdeal.Frame
import proofs.«106652_j34050500723299_1_alg».proof.Proof.Gen.KernelIdeal.Value
import proofs.«106652_j34050500723299_1_alg».proof.Proof.Gen.ReferenceIdeal
import proofs.«106652_j34050500723299_1_alg».proof.Proof.Gen.ReferenceIdeal.Run
import proofs.«106652_j34050500723299_1_alg».proof.Proof.Gen.ReferenceIdeal.Read
import proofs.«106652_j34050500723299_1_alg».proof.Proof.Gen.Pre_finite_inputs
import proofs.«106652_j34050500723299_1_alg».proof.Proof.KernelBlock
import proofs.«106652_j34050500723299_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program at the word level runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The rows the reference gathers are the rows the kernel's program gathers: one host gather of one table at one array of
    row positions, in both programs' texts. -/
theorem rows_eq (x : (⟨Cert.ReferenceIdeal.S150000x64, .f32⟩ : BufTy).Contents (Elt Ideal))
    (a : (⟨Cert.ReferenceIdeal.S2000000, .i32⟩ : BufTy).Contents (Elt Ideal)) :
    Cert.ReferenceIdeal.Read.val_main_v6 (F := Ideal) x a = Cert.KernelIdeal.Whole.rowsAt x a := rfl

theorem rows_eq' (x : (⟨Cert.ReferenceIdeal.S150000x64, .f32⟩ : BufTy).Contents (Elt Ideal))
    (a : (⟨Cert.ReferenceIdeal.S2000000, .i32⟩ : BufTy).Contents (Elt Ideal)) :
    Cert.ReferenceIdeal.Read.val_main_v13 (F := Ideal) x a = Cert.KernelIdeal.Whole.rowsAt x a := rfl

/-- From memories that agree on the arguments both programs end with the result array at the edge scorer of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2, Cert.ReferenceIdeal.Read.val_main_v23_eq, Cert.ReferenceIdeal.Score.result_eq, rows_eq, rows_eq']

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
